-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S1024x256 : Shape := ⟨2, ![1024, 256]⟩
abbrev S1024 : Shape := ⟨1, ![1024]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S64x2048x256 .f32) (main_arg1 : FVec F S1024x256 .f32) (main_arg2 : FVec F S1024 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S64x2048x256 : Shape := ⟨3, ![64, 2048, 256]⟩
abbrev S1024x256 : Shape := ⟨2, ![1024, 256]⟩
abbrev S1024 : Shape := ⟨1, ![1024]⟩
abbrev S131072x256 : Shape := ⟨2, ![131072, 256]⟩
abbrev S256x1024 : Shape := ⟨2, ![256, 1024]⟩
abbrev S1x1024 : Shape := ⟨2, ![1, 1024]⟩
abbrev S131072x1024 : Shape := ⟨2, ![131072, 1024]⟩
abbrev S2048x256 : Shape := ⟨2, ![2048, 256]⟩
abbrev S2048x1024 : Shape := ⟨2, ![2048, 1024]⟩
abbrev S64x2048x1024 : Shape := ⟨3, ![64, 2048, 1024]⟩

abbrev nBuf : Space → Nat
  | .hbm => 10
  | .vmem => 6
  | .smem => 0
  | _ => 0

abbrev bufTy : (tb : Table) → Fin (tcTables nBuf tb) → BufTy
  | .hbm, ⟨0, _⟩ => ⟨S64x2048x256, .f32⟩
  | .hbm, ⟨1, _⟩ => ⟨S1024x256, .f32⟩
  | .hbm, ⟨2, _⟩ => ⟨S1024, .f32⟩
  | .hbm, ⟨3, _⟩ => ⟨S131072x256, .f32⟩
  | .hbm, ⟨4, _⟩ => ⟨S131072x256, .bf16⟩
  | .hbm, ⟨5, _⟩ => ⟨S256x1024, .f32⟩
  | .hbm, ⟨6, _⟩ => ⟨S256x1024, .bf16⟩
  | .hbm, ⟨7, _⟩ => ⟨S1x1024, .f32⟩
  | .hbm, ⟨8, _⟩ => ⟨S131072x1024, .f32⟩
  | .hbm, ⟨9, _⟩ => ⟨S64x2048x1024, .f32⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x2048x256_S131072x256 : S64x2048x256.ShapeCasts S131072x256
  bitsLt_bf16_f32 : FTy.bits .bf16 < FTy.bits .f32
  transposes_S1024x256_S256x1024_1_0 : S1024x256.Transposes [1, 0] S256x1024
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S131072x1024_S64x2048x1024 : S131072x1024.ShapeCasts S64x2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .bf16 = 32 ∨ (Rect.block (s := S131072x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S131072x1024.size a
  hwx0_3 : ∀ i : grid0.Coords, EltTy.bits .f32 = 32 ∨ (Rect.block (s := S131072x1024) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S1024x256 : Shape := ⟨2, ![1024, 256]⟩
abbrev S1024 : Shape := ⟨1, ![1024]⟩
abbrev S64x2048x1024 : Shape := ⟨3, ![64, 2048, 1024]⟩
abbrev S1x1x1024 : Shape := ⟨3, ![1, 1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S1024x256, .f32⟩
  | .hbm, ⟨2, _⟩ => ⟨S1024, .f32⟩
  | .hbm, ⟨3, _⟩ => ⟨S64x2048x1024, .f32⟩
  | .hbm, ⟨4, _⟩ => ⟨S1x1x1024, .f32⟩
  | .hbm, ⟨5, _⟩ => ⟨S64x2048x1024, .f32⟩
  | .hbm, ⟨6, _⟩ => ⟨S64x2048x1024, .f32⟩
  | .hbm, ⟨7, _⟩ => ⟨S_, .f32⟩
  | .hbm, ⟨8, _⟩ => ⟨S64x2048x1024, .f32⟩
  | .hbm, ⟨9, _⟩ => ⟨S64x2048x1024, .i1⟩
  | .hbm, ⟨10, _⟩ => ⟨S_, .f32⟩
  | .hbm, ⟨11, _⟩ => ⟨S64x2048x1024, .f32⟩
  | .hbm, ⟨12, _⟩ => ⟨S64x2048x1024, .f32⟩
  | .hbm, ⟨13, _⟩ => ⟨S64x2048x1024, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x2048x1024_0_1_2 : S1x1x1024.BroadcastsInDim S64x2048x1024 (![0, 1, 2] : Fin 3 → Fin S64x2048x1024.rank)
  bcast_S_S64x2048x1024 : S_.BroadcastsInDim S64x2048x1024 (![] : Fin 0 → Fin S64x2048x1024.rank)
  dot_S64x2048x256_S1024x256_S64x2048x1024_2_1_01_0_n_n_wf : DotDims.WF S64x2048x256 S1024x256 S64x2048x1024 [2] [1] [0, 1] [0] [] []

variable [Facts₀]

def dot_S64x2048x256_S1024x256_S64x2048x1024_2_1_01_0_n_n : DotDims S64x2048x256 S1024x256 S64x2048x1024 where
  lhsContracting := [2]
  rhsContracting := [1]
  lhsNonContracting := [0, 1]
  rhsNonContracting := [0]
  lhsBatch := []
  rhsBatch := []
  wf := dot_S64x2048x256_S1024x256_S64x2048x1024_2_1_01_0_n_n_wf

class Facts : Prop extends Facts₀ where

variable [Facts]
-- ==== Proof.Dense.lean ====
/-
  The function both programs compute: a dense layer over the last axis followed by a leaky rectifier.
  For x : [64, 2048, 256], w : [1024, 256], b : [1024], the entry (p, q, o) of the result is
      leaky (∑ k, x[p, q, k] · w[o, k] + b[o]),   leaky y = y when y ≥ 0, and slope · y otherwise,
  the slope being the one binary32 literal both programs carry. Everything is read on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Dense

open Idealize.ShloMosaic Idealize.ShloMosaic.ValueIdx

/-- The rectifier on one extended real: the value itself where it compares `≥ 0`, the slope literal times it elsewhere. -/
def leaky (y : EReal) : EReal :=
  Scalar.select (FloatOps.cmpf (F := Ideal) (φ := .f32) .oge y (Ideal.ofBits .f32 0x00000000#32)) y
    (Ideal.ofBits .f32 0x3C23D70A#32 * y)

/-- The affine part at (p, q, o): the row (p, q) of `x` against the row `o` of `w`, plus the bias at `o`. -/
def affine (x : (⟨3, ![64, 2048, 256]⟩ : Shape).Idx → EReal) (w : (⟨2, ![1024, 256]⟩ : Shape).Idx → EReal)
    (b : (⟨1, ![1024]⟩ : Shape).Idx → EReal) (p : Fin 64) (q : Fin 2048) (o : Fin 1024) : EReal :=
  (∑ k : Fin 256, x (ix3 p q k) * w (ix2 o k)) + b (ix1 o)

/-- The whole result, index by index. -/
def layer (x : (⟨3, ![64, 2048, 256]⟩ : Shape).Idx → EReal) (w : (⟨2, ![1024, 256]⟩ : Shape).Idx → EReal)
    (b : (⟨1, ![1024]⟩ : Shape).Idx → EReal) : (⟨3, ![64, 2048, 1024]⟩ : Shape).Idx → EReal :=
  fun i => leaky (affine x w b (i 0) (i 1) (i 2))

/-- The same layer over the flattened rows: for X : [131072, 256], Wt : [256, 1024] (the weights transposed) and a
    bias row B : [1, 1024], the entry (r, n) is `leaky (∑ k, X[r, k] · Wt[k, n] + B[0, n])`. -/
def flat (X : (⟨2, ![131072, 256]⟩ : Shape).Idx → EReal) (Wt : (⟨2, ![256, 1024]⟩ : Shape).Idx → EReal)
    (B : (⟨2, ![1, 1024]⟩ : Shape).Idx → EReal) : (⟨2, ![131072, 1024]⟩ : Shape).Idx → EReal :=
  fun j => leaky ((∑ k : Fin 256, X (ix2 (j 0) k) * Wt (ix2 k (j 1))) + B (ix2 (0 : Fin 1) (j 1)))

/-- Folding the flattened layer back to [64, 2048, 1024]: when row p·2048 + q of `X` is row (p, q) of `x`, `Wt` is `w`
    transposed and `B` is `b` as a row, entry (p, q, o) of the folded array is entry (p·2048 + q, o) of the flat one,
    which is the layer's entry (p, q, o). -/
theorem fold_flat (x : (⟨3, ![64, 2048, 256]⟩ : Shape).Idx → EReal) (w : (⟨2, ![1024, 256]⟩ : Shape).Idx → EReal)
    (b : (⟨1, ![1024]⟩ : Shape).Idx → EReal) (X : (⟨2, ![131072, 256]⟩ : Shape).Idx → EReal)
    (Wt : (⟨2, ![256, 1024]⟩ : Shape).Idx → EReal) (B : (⟨2, ![1, 1024]⟩ : Shape).Idx → EReal)
    (hX : ∀ (p : Fin 64) (q : Fin 2048) (k : Fin 256) (h : p.val * 2048 + q.val < 131072),
      X (ix2 (⟨p.val * 2048 + q.val, h⟩ : Fin 131072) k) = x (ix3 p q k))
    (hW : ∀ (k : Fin 256) (n : Fin 1024), Wt (ix2 k n) = w (ix2 n k))
    (hB : ∀ n : Fin 1024, B (ix2 (0 : Fin 1) n) = b (ix1 n))
    (hc : (⟨2, ![131072, 1024]⟩ : Shape).ShapeCasts ⟨3, ![64, 2048, 1024]⟩) :
    shapeCast ⟨3, ![64, 2048, 1024]⟩ (flat X Wt B) hc = layer x w b := by
  funext i
  obtain ⟨p, q, o, rfl⟩ : ∃ (p : Fin 64) (q : Fin 2048) (o : Fin 1024), i = ix3 p q o := ⟨i 0, i 1, i 2, eq_ix3 i⟩
  have h : p.val * 2048 + q.val < 131072 := by
    have := p.isLt; have := q.isLt; omega
  rw [shapeCast_apply (flat X Wt B) hc (ix3 p q o) (ix2 (⟨p.val * 2048 + q.val, h⟩ : Fin 131072) o) (by
    rw [Shape.rowMajor_val_two, Shape.rowMajor_val_three]; rfl)]
  show leaky ((∑ k : Fin 256, X (ix2 (⟨p.val * 2048 + q.val, h⟩ : Fin 131072) k) * Wt (ix2 k o)) + B (ix2 (0 : Fin 1) o))
    = leaky ((∑ k : Fin 256, x (ix3 p q k) * w (ix2 o k)) + b (ix1 o))
  simp only [hX, hW, hB]

end Cert.Dense

end
-- ==== Proof.Body.lean ====
/-
  The kernel body's stored value at one entry of its output block. From a block of rows X : [2048, 256], the
  transposed weights Wt : [256, 1024] and the bias row B : [1, 1024], the body stores at (r, n)
      leaky (∑ k, X[r, k] · Wt[k, n] + B[0, n]):
  the product accumulated into a zero splat is the plain sum over the shared coordinate, and the bias row is
  repeated down the rows.
-/
import proofs.«121740_j39659728011311_1_alg».proof.Proof.Gen.KernelIdeal.Skeleton
import proofs.«121740_j39659728011311_1_alg».proof.Proof.Dense
import Idealize.ShloMosaic.Lib.Pipeline.Value
import Idealize.ShloMosaic.Lib.ValueIdx
import Idealize.ShloMosaic.PureOps.Ideal.Laws

noncomputable section

open scoped BigOperators

namespace Cert.KernelIdeal.DenseBody

open Cert.KernelIdeal Cert.KernelIdeal.Gen Idealize.ShloMosaic Idealize.ShloMosaic.ValueIdx

/-- The product's left operand is read at the output's row … -/
theorem lhs_axis0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl
/-- … and at the shared coordinate; -/
theorem lhs_axis1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
/-- the right operand at the shared coordinate … -/
theorem rhs_axis0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
/-- … and at the output's column. -/
theorem rhs_axis1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The block product into a zero accumulator, at (r, n): `∑ k, A[r, k] · B[k, n]`. -/
theorem product_apply (A : FVec Ideal S2048x256 .bf16) (B : FVec Ideal S256x1024 .bf16) (r : Fin 2048) (n : Fin 1024) :
    matmul dot_S2048x256_S256x1024_S2048x1024_1_0_0_1_n_n none A B (constant S2048x1024 .f32 0x00000000#32) (ix2 r n)
      = ∑ k : Fin 256, A (ix2 r k) * B (ix2 k n) := by
  simp only [matmul]
  rw [Ideal.matmul_constant_zero_apply,
    ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 r n)
      ((contrEquiv1 dot_S2048x256_S256x1024_S2048x1024_1_0_0_1_n_n 256 rfl rfl).symm k) = ix2 r k :=
    funext fun a => Fin.ext (by
      match a with
      | ⟨0, _⟩ => exact lhs_axis0 _ _
      | ⟨1, _⟩ => exact (lhs_axis1 _ _).trans hk)
  have er : dot_S2048x256_S256x1024_S2048x1024_1_0_0_1_n_n.rhsIdx (ix2 r n)
      ((contrEquiv1 dot_S2048x256_S256x1024_S2048x1024_1_0_0_1_n_n 256 rfl rfl).symm k) = ix2 k n :=
    funext fun a => Fin.ext (by
      match a with
      | ⟨0, _⟩ => exact (rhs_axis0 _ _).trans hk
      | ⟨1, _⟩ => exact rhs_axis1 _ _)
  rw [el, er]

/-- A `[1, 1024]` row repeated down 2048 rows reads, at (r, n), the row's entry at `n`. -/
theorem row_apply (v : FVec Ideal S1x1024 .f32) (r : Fin 2048) (n : Fin 1024) :
    broadcastTo S2048x1024 v broadcasts_S1x1024_S2048x1024 (ix2 r n) = v (ix2 (0 : Fin 1) n) := by
  refine broadcastTo_apply v broadcasts_S1x1024_S2048x1024 (ix2 r n) (ix2 (0 : Fin 1) n) fun a => ?_
  match a with
  | ⟨0, _⟩ => rfl
  | ⟨1, _⟩ => rfl

/-- What the body stores at (r, n) of its output block. -/
theorem stored_apply (x0 : Vec Ideal S2048x256 .bf16) (x1 : Vec Ideal S256x1024 .bf16) (x2 : Vec Ideal S1x1024 .f32)
    (r : Fin 2048) (n : Fin 1024) :
    k0_pay1 (F := Ideal) x0 x1 x2 (ix2 r n)
      = Cert.Dense.leaky ((∑ k : Fin 256, x0 (ix2 r k) * x1 (ix2 k n)) + x2 (ix2 (0 : Fin 1) n)) := by
  unfold k0_pay1
  rw [select_apply, cmpf_apply, mulf_apply, addf_apply, broadcast_apply, broadcast_apply,
    shapeCast_self, shapeCast_self, shapeCast_self, product_apply, row_apply]
  rfl

end Cert.KernelIdeal.DenseBody

end
-- ==== Proof.Blocks.lean ====
/-
  From the output's blocks to the whole array. The grid has 64 points; point t stages rows 2048·t … 2048·t + 2047 of
  the flattened input, the whole transposed weights and the whole bias row, and writes back rows 2048·t … 2048·t + 2047
  of the [131072, 1024] result. What it writes back is that block of `Dense.flat` of the three arrays the region finds,
  the 64 blocks tile the result, so after the last point the result array is `Dense.flat` of those arrays.
-/
import proofs.«121740_j39659728011311_1_alg».proof.Proof.Gen.KernelIdeal.Frame
import proofs.«121740_j39659728011311_1_alg».proof.Proof.Body
import proofs.«121740_j39659728011311_1_alg».proof.Proof.Dense
import Idealize.ShloMosaic.Lib.Pipeline.Value
import Idealize.ShloMosaic.Lib.ValueIdx

set_option maxRecDepth 16384

noncomputable section

open scoped BigOperators

namespace Cert.KernelIdeal.DenseBlocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The body's one store covers its whole output block, so what it leaves there is the stored value. -/
theorem left_eq (x0 : Vec Ideal S2048x256 .bf16) (x1 : Vec Ideal S256x1024 .bf16) (x2 : Vec Ideal S1x1024 .f32) :
    out0_3 (F := Ideal) x0 x1 x2 = k0_pay1 x0 x1 x2 := by
  unfold out0_3
  rw [View.canon_unit_zero origin]
  simp only [View.ld_unit_zero (S := S2048x256) origin, View.ld_unit_zero (S := S256x1024) origin,
    View.ld_unit_zero (S := S1x1024) origin]

/-- The block indices over the grid: the row blocks of the input and of the output move with the point, the
    weights and the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `Dense.flat` of the arrays the region finds. -/
theorem written_eq (c : Dev nD) (t : Fin cfg0.N) :
    (dats m 0 c).flushed 3 t
      = ((cfg0.win 3).blk t).view.read (Elt Ideal) (Cert.Dense.flat (V m c main_v1) (V m c main_v3) (V m c main_v4)) := by
  show (cfg0.win 3).cut (grid0.coords t) ((dats m 0 c).after 3 t) = _
  rw [after0_3, left_eq]
  obtain ⟨a0, a1, b0, b1, c0, c1, d0, d1⟩ := block_indices t
  funext j
  obtain ⟨r, n, rfl⟩ : ∃ (r : Fin 2048) (n : Fin 1024), j = ix2 r n := ⟨j 0, j 1, eq_ix2 j⟩
  show k0_pay1 (F := Ideal) (iblk m c 0 t) (iblk m c 1 t) (iblk m c 2 t) (ix2 r n)
    = Cert.Dense.flat (V m c main_v1) (V m c main_v3) (V m c main_v4) (((cfg0.win 3).blk t).view.emb (ix2 r n))
  refine (Cert.KernelIdeal.DenseBody.stored_apply (iblk m c 0 t) (iblk m c 1 t) (iblk m c 2 t) r n).trans ?_
  -- each staged block read where the output block's entry says
  have e0 : ∀ k : Fin 256, iblk m c 0 t (ix2 r k)
      = V m c main_v1 (ix2 ((((cfg0.win 3).blk t).view.emb (ix2 r n)) 0) k) := fun k => by
    show V m c main_v1 (((cfg0.win 0).blk t).view.emb (ix2 r k)) = _
    refine congrArg (V m c main_v1) (funext fun a => Fin.ext ?_)
    match a with
    | ⟨0, _⟩ =>
      show win0_0.index t (0 : Fin 2) * 2048 + 1 * r.val = win0_3.index t (0 : Fin 2) * 2048 + 1 * r.val
      omega
    | ⟨1, _⟩ =>
      show win0_0.index t (1 : Fin 2) * 256 + 1 * k.val = k.val
      omega
  have e1 : ∀ k : Fin 256, iblk m c 1 t (ix2 k n)
      = V m c main_v3 (ix2 k ((((cfg0.win 3).blk t).view.emb (ix2 r n)) 1)) := fun k => by
    show V m c main_v3 (((cfg0.win 1).blk t).view.emb (ix2 k n)) = _
    refine congrArg (V m c main_v3) (funext fun a => Fin.ext ?_)
    match a with
    | ⟨0, _⟩ =>
      show win0_1.index t (0 : Fin 2) * 256 + 1 * k.val = k.val
      omega
    | ⟨1, _⟩ =>
      show win0_1.index t (1 : Fin 2) * 1024 + 1 * n.val = win0_3.index t (1 : Fin 2) * 1024 + 1 * n.val
      omega
  have e2 : iblk m c 2 t (ix2 (0 : Fin 1) n)
      = V m c main_v4 (ix2 (0 : Fin 1) ((((cfg0.win 3).blk t).view.emb (ix2 r n)) 1)) := by
    show V m c main_v4 (((cfg0.win 2).blk t).view.emb (ix2 (0 : Fin 1) n)) = _
    refine congrArg (V m c main_v4) (funext fun a => Fin.ext ?_)
    match a with
    | ⟨0, _⟩ =>
      show win0_2.index t (0 : Fin 2) * 1 + 1 * 0 = 0
      omega
    | ⟨1, _⟩ =>
      show win0_2.index t (1 : Fin 2) * 1024 + 1 * n.val = win0_3.index t (1 : Fin 2) * 1024 + 1 * n.val
      omega
  simp only [e0, e1, e2]
  rfl

/-- An index of the result lies in point `t`'s block iff each coordinate lies in the block's range on its axis. -/
theorem mem_block (t : Fin cfg0.N) (i : S131072x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Row `R` of the result is written back by point `R / 2048`: the 64 blocks tile the array. -/
theorem tiled (i : S131072x1024.Idx) :
    ∃ t : Fin cfg0.N, (cfg0.win 3).flush t = true ∧ i ∈ ((cfg0.win 3).blk t).view.set := by
  have hi0 : (i 0).val < 131072 := (i 0).isLt
  have hi1 : (i 1).val < 1024 := (i 1).isLt
  have ht : (i 0).val / 2048 < cfg0.N := by
    show (i 0).val / 2048 < grid0.N
    rw [N_0]; omega
  obtain ⟨-, -, -, -, -, -, d0, d1⟩ := block_indices ⟨(i 0).val / 2048, ht⟩
  have d0' : win0_3.index ⟨(i 0).val / 2048, ht⟩ (0 : Fin 2) = (i 0).val / 2048 := d0
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    omega

/-- After the last point the result array is `Dense.flat` of the arrays the region finds. -/
theorem result_array (c : Dev nD) :
    (dats m 0 c).arrAt 3 cfg0.N = Cert.Dense.flat (V m c main_v1) (V m c main_v3) (V m c main_v4) :=
  (dats m 0 c).arrAt_eq_of_cover 3 _ (fun t _ => written_eq m c t) tiled

end Cert.KernelIdeal.DenseBlocks

end
-- ==== Proof.Inputs.lean ====
/-
  The three arrays the kernel region finds, as functions of the program's arguments. Before the region the host
  flattens `x` to rows ([64, 2048, 256] → [131072, 256], row p·2048 + q), transposes `w` ([1024, 256] → [256, 1024])
  and makes the bias a row ([1024] → [1, 1024]); the two changes of float format are the identity on extended reals.
-/
import proofs.«121740_j39659728011311_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.DenseInputs

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The flattened input as the region finds it. -/
theorem rows_eq (c : Dev nD) : (V m c main_v1 : S131072x256.Idx → EReal)
    = truncf (F := Ideal) .bf16 (shapeCast S131072x256 (m ((c : Thread nD τ).loc main_arg0)) shapeCasts_S64x2048x256_S131072x256) bitsLt_bf16_f32 := by
  show StableHlo.after hostOps0 (fun b => m (c, b)) (Proc.devRef .tc main_v1) = _
  after_results
  rfl

/-- The transposed weights as the region finds them. -/
theorem weights_eq (c : Dev nD) : (V m c main_v3 : S256x1024.Idx → EReal)
    = truncf (F := Ideal) .bf16 (transpose S256x1024 [1, 0] (m ((c : Thread nD τ).loc main_arg1)) transposes_S1024x256_S256x1024_1_0) bitsLt_bf16_f32 := by
  show StableHlo.after hostOps0 (fun b => m (c, b)) (Proc.devRef .tc main_v3) = _
  after_results

/-- The bias row as the region finds it. -/
theorem bias_eq (c : Dev nD) : (V m c main_v4 : S1x1024.Idx → EReal)
    = shapeCast S1x1024 (m ((c : Thread nD τ).loc main_arg2)) shapeCasts_S1024_S1x1024 := by
  show StableHlo.after hostOps0 (fun b => m (c, b)) (Proc.devRef .tc main_v4) = _
  after_results
  rfl

/-- Row p·2048 + q of the flattened input is row (p, q) of `x`. -/
theorem rows_apply (c : Dev nD) (p : Fin 64) (q : Fin 2048) (k : Fin 256) (h : p.val * 2048 + q.val < 131072) :
    V m c main_v1 (ix2 (⟨p.val * 2048 + q.val, h⟩ : Fin 131072) k) = m ((c : Thread nD τ).loc main_arg0) (ix3 p q k) := by
  rw [rows_eq, truncf_apply]
  refine shapeCast_apply _ _ _ _ ?_
  show (S64x2048x256.rowMajor (ix3 p q k)).val = (S131072x256.rowMajor (ix2 (⟨p.val * 2048 + q.val, h⟩ : Fin 131072) k)).val
  rw [Shape.rowMajor_val_three, Shape.rowMajor_val_two]
  rfl

/-- Entry (k, n) of the transposed weights is entry (n, k) of `w`. -/
theorem weights_apply (c : Dev nD) (k : Fin 256) (n : Fin 1024) :
    V m c main_v3 (ix2 k n) = m ((c : Thread nD τ).loc main_arg1) (ix2 n k) := by
  rw [weights_eq, truncf_apply]
  refine transpose_apply _ _ _ _ _ fun b => ?_
  match b with
  | ⟨0, _⟩ => rfl
  | ⟨1, _⟩ => rfl

/-- Entry (0, n) of the bias row is entry n of `b`. -/
theorem bias_apply (c : Dev nD) (n : Fin 1024) :
    V m c main_v4 (ix2 (0 : Fin 1) n) = m ((c : Thread nD τ).loc main_arg2) (ix1 n) := by
  rw [bias_eq]
  refine shapeCast_apply _ _ _ _ ?_
  show (S1024.rowMajor (ix1 n)).val = (S1x1024.rowMajor (ix2 (0 : Fin 1) n)).val
  rw [Shape.rowMajor_val_one, Shape.rowMajor_val_two]
  show n.val = 0 * 1024 + n.val
  omega

end Cert.KernelIdeal.DenseInputs

end
-- ==== Proof.Value.lean ====
/-
  The idealized kernel's run with its result named. After the region the host folds the [131072, 1024] result back to
  [64, 2048, 1024]; the region's result array is `Dense.flat` of the flattened input, the transposed weights and the
  bias row, and folding that back gives `Dense.layer` of the program's three arguments, which the run leaves unchanged.
-/
import proofs.«121740_j39659728011311_1_alg».proof.Proof.Gen.KernelIdeal.Frame
import proofs.«121740_j39659728011311_1_alg».proof.Proof.Blocks
import proofs.«121740_j39659728011311_1_alg».proof.Proof.Inputs
import proofs.«121740_j39659728011311_1_alg».proof.Proof.Dense
import Idealize.ShloMosaic.Lib.StableHlo.Run

noncomputable section

namespace Cert.KernelIdeal.DenseValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The one host line after the region folds the region's result array. -/
theorem tail_eq (c : Dev nD) :
    (Pipeline.afterTail₀ cfgs (dats m) 0 (V0 m) [hostOps1] c main_v6 : S64x2048x1024.Idx → EReal)
      = shapeCast S64x2048x1024 ((dats m 0 c).arrAt 3 cfg0.N) shapeCasts_S131072x1024_S64x2048x1024 := by
  unfold Pipeline.afterTail₀
  show StableHlo.after hostOps1 _ (Proc.devRef .tc main_v6) = _
  after_results
  rw [Pipeline.withArrays_arr spec0 launch0.win.arr_inj c _ _ 3]
  rfl

/-- The program's result is the layer of its arguments. -/
theorem result_eq (c : Dev nD) :
    Pipeline.afterTail₀ cfgs (dats m) 0 (V0 m) [hostOps1] c main_v6
      = Cert.Dense.layer (m ((c : Thread nD τ).loc main_arg0)) (m ((c : Thread nD τ).loc main_arg1))
          (m ((c : Thread nD τ).loc main_arg2)) := by
  refine (tail_eq m c).trans ?_
  rw [Cert.KernelIdeal.DenseBlocks.result_array]
  exact Cert.Dense.fold_flat _ _ _ _ _ _ (fun p q k h => Cert.KernelIdeal.DenseInputs.rows_apply m c p q k h)
    (Cert.KernelIdeal.DenseInputs.weights_apply m c) (Cert.KernelIdeal.DenseInputs.bias_apply m c) _

/-- Every weakly fair execution of the idealized kernel terminates with its result at the layer of the arguments and
    the arguments as launched. -/
theorem run : θ_run defs (onTc (τ := τ) (main (F := Ideal))) ⟨m, fun _ => 0, ρ⟩ fun r => ∀ c : Dev nD,
      r.2.mem ((c.tc : Thread nD τ).loc main_v6)
        = Cert.Dense.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.DenseValue

end
-- ==== Proof.RefLayer.lean ====
/-
  The reference's result, read index by index, is the dense layer followed by the rectifier: at (p, q, o) the
  contraction reads row (p, q) of `x` against row `o` of `w`, the bias is broadcast along the last axis, and the
  comparison with zero, the product with the slope and the selection act entry by entry.
-/
import proofs.«121740_j39659728011311_1_alg».proof.Proof.Gen.ReferenceIdeal.Read
import proofs.«121740_j39659728011311_1_alg».proof.Proof.Dense

noncomputable section

open scoped BigOperators

namespace Cert.ReferenceIdeal.DenseRef

open Cert.ReferenceIdeal Cert.ReferenceIdeal.Read Idealize.ShloMosaic Idealize.ShloMosaic.ValueIdx

/-- The reference's result stage is `Dense.layer` of the three arguments. -/
theorem result_eq (x0 : (⟨S64x2048x256, .f32⟩ : BufTy).Contents (Elt Ideal)) (x1 : (⟨S1024x256, .f32⟩ : BufTy).Contents (Elt Ideal))
    (x2 : (⟨S1024, .f32⟩ : BufTy).Contents (Elt Ideal)) :
    val_main_v8 (F := Ideal) x0 x1 x2 = Cert.Dense.layer x0 x1 x2 := by
  funext i
  -- the contraction's two operand indices and the bias index, by coordinates
  have hl : ∀ k : Fin 256, lidx_main_v0 i k = ix3 (i 0) (i 1) k := fun k => funext fun a => Fin.ext (by
    match a with
    | ⟨0, _⟩ => rfl
    | ⟨1, _⟩ => rfl
    | ⟨2, _⟩ => rfl)
  have hr : ∀ k : Fin 256, ridx_main_v0 i k = ix2 (i 2) k := fun k => funext fun a => Fin.ext (by
    match a with
    | ⟨0, _⟩ => rfl
    | ⟨1, _⟩ => rfl)
  have hb : idx_main_v1 (idx_main_v2 i) = ix1 (i 2) := funext fun a => Fin.ext (by
    match a with
    | ⟨0, _⟩ => rfl)
  rw [val_main_v8_apply, val_main_v5_apply, val_main_v7_apply, val_main_v3_apply, val_main_v0_apply,
    val_main_v2_apply, val_main_v1_apply, val_main_v4_apply, val_main_v6_apply, val_main_cst_apply,
    val_main_cst_0_apply]
  simp only [hl, hr, hb]
  rfl

end Cert.ReferenceIdeal.DenseRef

end
-- ==== Proof.lean ====
/-
  The certificate of a dense layer with a leaky rectifier. The kernel flattens x : [64, 2048, 256] to rows, multiplies
  blocks of 2048 rows by the transposed weights on a grid of 64 points, adds the bias row and applies
  y ↦ (y if y ≥ 0 else slope · y); the reference contracts x against w directly, adds the broadcast bias and applies the
  same rectifier with the same slope literal. On the extended reals the changes of float format are the identity and both
  results are, at (p, q, o), leaky (∑ k, x[p, q, k] · w[o, k] + b[o]) (Proof/Dense.lean): the two sums have the same terms,
  so no law beyond reading each side index by index is used, and the precondition is never opened.
-/
import proofs.«121740_j39659728011311_1_alg».proof.Defs
import proofs.«121740_j39659728011311_1_alg».proof.Proof.Gen.Kernel
import proofs.«121740_j39659728011311_1_alg».proof.Proof.Gen.Kernel.Skeleton
import proofs.«121740_j39659728011311_1_alg».proof.Proof.Gen.Kernel.Launch
import proofs.«121740_j39659728011311_1_alg».proof.Proof.Gen.Kernel.Points
import proofs.«121740_j39659728011311_1_alg».proof.Proof.Gen.Kernel.Frame
import proofs.«121740_j39659728011311_1_alg».proof.Proof.Gen.KernelIdeal
import proofs.«121740_j39659728011311_1_alg».proof.Proof.Gen.KernelIdeal.Skeleton
import proofs.«121740_j39659728011311_1_alg».proof.Proof.Gen.KernelIdeal.Launch
import proofs.«121740_j39659728011311_1_alg».proof.Proof.Gen.KernelIdeal.Points
import proofs.«121740_j39659728011311_1_alg».proof.Proof.Gen.KernelIdeal.Frame
import proofs.«121740_j39659728011311_1_alg».proof.Proof.Gen.ReferenceIdeal
import proofs.«121740_j39659728011311_1_alg».proof.Proof.Gen.ReferenceIdeal.Run
import proofs.«121740_j39659728011311_1_alg».proof.Proof.Gen.ReferenceIdeal.Read
import proofs.«121740_j39659728011311_1_alg».proof.Proof.Gen.Pre_finite_inputs
import proofs.«121740_j39659728011311_1_alg».proof.Proof.Value
import proofs.«121740_j39659728011311_1_alg».proof.Proof.RefLayer
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer of the shared arguments. -/
theorem algebraic : Cert.algebraic_KernelIdeal_ReferenceIdeal := by
  intro m ρ m' ρ' _ hagree
  refine ⟨fun c => Cert.Dense.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.DenseRef.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
